-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x512x512 : Shape := ⟨4, ![16, 16, 512, 512]⟩
abbrev S16x16x512x1 : Shape := ⟨4, ![16, 16, 512, 1]⟩
abbrev S16x16x1x1 : Shape := ⟨4, ![16, 16, 1, 1]⟩
abbrev S_ : Shape := ⟨0, ![]⟩

class Facts : Prop where
  bcast_S_S16x16x512x512 : S_.BroadcastsInDim S16x16x512x512 (![] : Fin 0 → Fin S16x16x512x512.rank)
  reducesTo_S16x16x512x512_S_d0_1_2_3 : S16x16x512x512.ReducesTo [0, 1, 2, 3] S_
  h_S_ : 0 < S_.numel
  bcast_S_S16x16x512x1 : S_.BroadcastsInDim S16x16x512x1 (![] : Fin 0 → Fin S16x16x512x1.rank)
  reducesTo_S16x16x512x1_S_d0_1_2_3 : S16x16x512x1.ReducesTo [0, 1, 2, 3] S_
  bcast_S_S16x16x1x1 : S_.BroadcastsInDim S16x16x1x1 (![] : Fin 0 → Fin S16x16x1x1.rank)
  reducesTo_S16x16x1x1_S_d0_1_2_3 : S16x16x1x1.ReducesTo [0, 1, 2, 3] S_

variable [Facts]

def fn_part1 {F : FTy → Type} [FloatOps F] (main_arg4 : FVec F S16x16x1x1 .f32) (main_v13 : IVec S_ 1) (main_v16 : IVec S16x16x1x1 1) : IVec S_ 1 :=
  let main_c_5 : IVec S_ 1 := constantI S_ 1 1#1
  let main_v17 : IVec S_ 1 := (fun x v => Host.reduce IntOp.andi x v reducesTo_S16x16x1x1_S_d0_1_2_3 h_S_) main_v16 main_c_5
  let main_v18 : IVec S_ 1 := andi main_v13 main_v17
  let main_v19 : FVec F S16x16x1x1 .f32 := Host.absf main_arg4
  let main_cst_6 : FVec F S_ .f32 := constant S_ .f32 0x7F800000#32
  let main_v20 : FVec F S16x16x1x1 .f32 := broadcastInDim S16x16x1x1 ![] bcast_S_S16x16x1x1 main_cst_6
  let main_v21 : IVec S16x16x1x1 1 := cmpf .olt main_v19 main_v20
  let main_c_7 : IVec S_ 1 := constantI S_ 1 1#1
  let main_v22 : IVec S_ 1 := (fun x v => Host.reduce IntOp.andi x v reducesTo_S16x16x1x1_S_d0_1_2_3 h_S_) main_v21 main_c_7
  let main_v23 : IVec S_ 1 := andi main_v18 main_v22
  main_v23

def fn {F : FTy → Type} [FloatOps F] (main_arg0 : FVec F S16x16x512x512 .f32) (main_arg1 : FVec F S16x16x512x1 .f32) (main_arg2 : FVec F S16x16x512x1 .f32) (main_arg3 : FVec F S16x16x1x1 .f32) (main_arg4 : FVec F S16x16x1x1 .f32) : IVec S_ 1 :=
  let main_v0 : FVec F S16x16x512x512 .f32 := Host.absf main_arg0
  let main_cst : FVec F S_ .f32 := constant S_ .f32 0x7F800000#32
  let main_v1 : FVec F S16x16x512x512 .f32 := broadcastInDim S16x16x512x512 ![] bcast_S_S16x16x512x512 main_cst
  let main_v2 : IVec S16x16x512x512 1 := cmpf .olt main_v0 main_v1
  let main_c : IVec S_ 1 := constantI S_ 1 1#1
  let main_v3 : IVec S_ 1 := (fun x v => Host.reduce IntOp.andi x v reducesTo_S16x16x512x512_S_d0_1_2_3 h_S_) main_v2 main_c
  let main_v4 : FVec F S16x16x512x1 .f32 := Host.absf main_arg1
  let main_cst_0 : FVec F S_ .f32 := constant S_ .f32 0x7F800000#32
  let main_v5 : FVec F S16x16x512x1 .f32 := broadcastInDim S16x16x512x1 ![] bcast_S_S16x16x512x1 main_cst_0
  let main_v6 : IVec S16x16x512x1 1 := cmpf .olt main_v4 main_v5
  let main_c_1 : IVec S_ 1 := constantI S_ 1 1#1
  let main_v7 : IVec S_ 1 := (fun x v => Host.reduce IntOp.andi x v reducesTo_S16x16x512x1_S_d0_1_2_3 h_S_) main_v6 main_c_1
  let main_v8 : IVec S_ 1 := andi main_v3 main_v7
  let main_v9 : FVec F S16x16x512x1 .f32 := Host.absf main_arg2
  let main_cst_2 : FVec F S_ .f32 := constant S_ .f32 0x7F800000#32
  let main_v10 : FVec F S16x16x512x1 .f32 := broadcastInDim S16x16x512x1 ![] bcast_S_S16x16x512x1 main_cst_2
  let main_v11 : IVec S16x16x512x1 1 := cmpf .olt main_v9 main_v10
  let main_c_3 : IVec S_ 1 := constantI S_ 1 1#1
  let main_v12 : IVec S_ 1 := (fun x v => Host.reduce IntOp.andi x v reducesTo_S16x16x512x1_S_d0_1_2_3 h_S_) main_v11 main_c_3
  let main_v13 : IVec S_ 1 := andi main_v8 main_v12
  let main_v14 : FVec F S16x16x1x1 .f32 := Host.absf main_arg3
  let main_cst_4 : FVec F S_ .f32 := constant S_ .f32 0x7F800000#32
  let main_v15 : FVec F S16x16x1x1 .f32 := broadcastInDim S16x16x1x1 ![] bcast_S_S16x16x1x1 main_cst_4
  let main_v16 : IVec S16x16x1x1 1 := cmpf .olt main_v14 main_v15
  fn_part1 (F := F) main_arg4 main_v13 main_v16
-- ==== Kernel.lean ====
abbrev S16x16x512x512 : Shape := ⟨4, ![16, 16, 512, 512]⟩
abbrev S16x16x512x1 : Shape := ⟨4, ![16, 16, 512, 1]⟩
abbrev S16x16x1x1 : Shape := ⟨4, ![16, 16, 1, 1]⟩
abbrev S16x16x1x512 : Shape := ⟨4, ![16, 16, 1, 512]⟩
abbrev S1x1x512x512 : Shape := ⟨4, ![1, 1, 512, 512]⟩
abbrev S1x1x512x1 : Shape := ⟨4, ![1, 1, 512, 1]⟩
abbrev S1x1x1x512 : Shape := ⟨4, ![1, 1, 1, 512]⟩
abbrev S1x1x1x1 : Shape := ⟨4, ![1, 1, 1, 1]⟩
abbrev S512x512 : Shape := ⟨2, ![512, 512]⟩
abbrev S512x1 : Shape := ⟨2, ![512, 1]⟩
abbrev S1x512 : Shape := ⟨2, ![1, 512]⟩
abbrev S1x1 : Shape := ⟨2, ![1, 1]⟩

abbrev nBuf : Space → Nat
  | .hbm => 7
  | .vmem => 14
  | .smem => 0
  | _ => 0

abbrev bufTy : (tb : Table) → Fin (tcTables nBuf tb) → BufTy
  | .hbm, ⟨0, _⟩ => ⟨S16x16x512x512, .f32⟩
  | .hbm, ⟨1, _⟩ => ⟨S16x16x512x1, .f32⟩
  | .hbm, ⟨2, _⟩ => ⟨S16x16x512x1, .f32⟩
  | .hbm, ⟨3, _⟩ => ⟨S16x16x1x1, .f32⟩
  | .hbm, ⟨4, _⟩ => ⟨S16x16x1x1, .f32⟩
  | .hbm, ⟨5, _⟩ => ⟨S16x16x1x512, .f32⟩
  | .hbm, ⟨6, _⟩ => ⟨S16x16x512x512, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x1, .f32⟩
  | .local _ .vmem, ⟨3, _⟩ => ⟨S1x1x512x1, .f32⟩
  | .local _ .vmem, ⟨4, _⟩ => ⟨S1x1x1x512, .f32⟩
  | .local _ .vmem, ⟨5, _⟩ => ⟨S1x1x1x512, .f32⟩
  | .local _ .vmem, ⟨6, _⟩ => ⟨S1x1x512x1, .f32⟩
  | .local _ .vmem, ⟨7, _⟩ => ⟨S1x1x512x1, .f32⟩
  | .local _ .vmem, ⟨8, _⟩ => ⟨S1x1x1x1, .f32⟩
  | .local _ .vmem, ⟨9, _⟩ => ⟨S1x1x1x1, .f32⟩
  | .local _ .vmem, ⟨10, _⟩ => ⟨S1x1x1x1, .f32⟩
  | .local _ .vmem, ⟨11, _⟩ => ⟨S1x1x1x1, .f32⟩
  | .local _ .vmem, ⟨12, _⟩ => ⟨S1x1x512x512, .f32⟩
  | .local _ .vmem, ⟨13, _⟩ => ⟨S1x1x512x512, .f32⟩
  | _, _ => ⟨S16x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S16x16x512x1_S16x16x1x512_0_1_3_2 : S16x16x512x1.Transposes [0, 1, 3, 2] S16x16x1x512
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  inb_S1x1x512x1_S1x1x512x1_0_0_0_0 : ∀ a, (![0, 0, 0, 0] : Fin 4 → Nat) a + S1x1x512x1.size a ≤ S1x1x512x1.size a
  h_S1x1x512x1 : 0 < S1x1x512x1.numel
  shapeCasts_S1x1x512x1_S512x1 : S1x1x512x1.ShapeCasts S512x1
  inb_S1x1x1x512_S1x1x1x512_0_0_0_0 : ∀ a, (![0, 0, 0, 0] : Fin 4 → Nat) a + S1x1x1x512.size a ≤ S1x1x1x512.size a
  h_S1x1x1x512 : 0 < S1x1x1x512.numel
  shapeCasts_S1x1x1x512_S1x512 : S1x1x1x512.ShapeCasts S1x512
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S1x1x1x1_S1x1 : S1x1x1x1.ShapeCasts S1x1
  bitsLt_bf16_f32 : FTy.bits .bf16 < FTy.bits .f32
  broadcasts_S512x1_S512x512 : S512x1.Broadcasts S512x512
  broadcasts_S1x512_S512x512 : S1x512.Broadcasts S512x512
  broadcasts_S1x1_S512x512 : S1x1.Broadcasts S512x512
  shapeCasts_S512x512_S1x1x512x512 : S512x512.ShapeCasts S1x1x512x512
  dot_S512x512_S512x1_S512x1_1_0_0_1_n_n_wf : DotDims.WF S512x512 S512x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x16x512x512.size a
  hwx0_0 : ∀ i : grid0.Coords, EltTy.bits .f32 = 32 ∨ (Rect.block (s := S16x16x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x1.size a ≤ S16x16x512x1.size a
  hwx0_1 : ∀ i : grid0.Coords, EltTy.bits .f32 = 32 ∨ (Rect.block (s := S16x16x512x1) S1x1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x512.size a ≤ S16x16x1x512.size a
  hwx0_2 : ∀ i : grid0.Coords, EltTy.bits .f32 = 32 ∨ (Rect.block (s := S16x16x1x512) S1x1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x1.size a ≤ S16x16x512x1.size a
  hwx0_3 : ∀ i : grid0.Coords, EltTy.bits .f32 = 32 ∨ (Rect.block (s := S16x16x512x1) S1x1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x1.size a ≤ S16x16x1x1.size a
  hwx0_4 : ∀ i : grid0.Coords, EltTy.bits .f32 = 32 ∨ (Rect.block (s := S16x16x1x1) S1x1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1x1.size a ≤ S16x16x1x1.size a
  hwx0_5 : ∀ i : grid0.Coords, EltTy.bits .f32 = 32 ∨ (Rect.block (s := S16x16x1x1) S1x1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x512.size a ≤ S16x16x512x512.size a
  hwx0_6 : ∀ i : grid0.Coords, EltTy.bits .f32 = 32 ∨ (Rect.block (s := S16x16x512x512) S1x1x512x512.size (cc0_transform_6 i) (hinb0_6 i)).WholeWords (EltTy.packing .f32)

variable [Facts₀]

def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x1x1x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x1x1x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x16x512x512 : Shape := ⟨4, ![16, 16, 512, 512]⟩
abbrev S16x16x512x1 : Shape := ⟨4, ![16, 16, 512, 1]⟩
abbrev S16x16x1x1 : Shape := ⟨4, ![16, 16, 1, 1]⟩
abbrev S16x16x1x512 : Shape := ⟨4, ![16, 16, 1, 512]⟩

abbrev nBuf : Space → Nat
  | .hbm => 16
  | .vmem => 0
  | .smem => 0
  | _ => 0

abbrev bufTy : (tb : Table) → Fin (tcTables nBuf tb) → BufTy
  | .hbm, ⟨0, _⟩ => ⟨S16x16x512x512, .f32⟩
  | .hbm, ⟨1, _⟩ => ⟨S16x16x512x1, .f32⟩
  | .hbm, ⟨2, _⟩ => ⟨S16x16x512x1, .f32⟩
  | .hbm, ⟨3, _⟩ => ⟨S16x16x1x1, .f32⟩
  | .hbm, ⟨4, _⟩ => ⟨S16x16x1x1, .f32⟩
  | .hbm, ⟨5, _⟩ => ⟨S16x16x512x1, .f32⟩
  | .hbm, ⟨6, _⟩ => ⟨S16x16x512x1, .f32⟩
  | .hbm, ⟨7, _⟩ => ⟨S16x16x1x512, .f32⟩
  | .hbm, ⟨8, _⟩ => ⟨S16x16x512x512, .f32⟩
  | .hbm, ⟨9, _⟩ => ⟨S16x16x512x512, .f32⟩
  | .hbm, ⟨10, _⟩ => ⟨S16x16x512x512, .f32⟩
  | .hbm, ⟨11, _⟩ => ⟨S16x16x512x512, .f32⟩
  | .hbm, ⟨12, _⟩ => ⟨S16x16x512x512, .f32⟩
  | .hbm, ⟨13, _⟩ => ⟨S16x16x512x512, .f32⟩
  | .hbm, ⟨14, _⟩ => ⟨S16x16x512x512, .f32⟩
  | .hbm, ⟨15, _⟩ => ⟨S16x16x512x512, .f32⟩
  | _, _ => ⟨S16x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  transposes_S16x16x512x1_S16x16x1x512_0_1_3_2 : S16x16x512x1.Transposes [0, 1, 3, 2] S16x16x1x512
  bcast_S16x16x512x1_S16x16x512x512_0_1_2_3 : S16x16x512x1.BroadcastsInDim S16x16x512x512 (![0, 1, 2, 3] : Fin 4 → Fin S16x16x512x512.rank)
  bcast_S16x16x1x512_S16x16x512x512_0_1_2_3 : S16x16x1x512.BroadcastsInDim S16x16x512x512 (![0, 1, 2, 3] : Fin 4 → Fin S16x16x512x512.rank)
  bcast_S16x16x1x1_S16x16x512x512_0_1_2_3 : S16x16x1x1.BroadcastsInDim S16x16x512x512 (![0, 1, 2, 3] : Fin 4 → Fin S16x16x512x512.rank)
  dot_S16x16x512x512_S16x16x512x1_S16x16x512x1_3_2_2_3_01_01_wf : DotDims.WF S16x16x512x512 S16x16x512x1 S16x16x512x1 [3] [2] [2] [3] [0, 1] [0, 1]

variable [Facts₀]

def dot_S16x16x512x512_S16x16x512x1_S16x16x512x1_3_2_2_3_01_01 : DotDims S16x16x512x512 S16x16x512x1 S16x16x512x1 where
  lhsContracting := [3]
  rhsContracting := [2]
  lhsNonContracting := [2]
  rhsNonContracting := [3]
  lhsBatch := [0, 1]
  rhsBatch := [0, 1]
  wf := dot_S16x16x512x512_S16x16x512x1_S16x16x512x1_3_2_2_3_01_01_wf

class Facts : Prop extends Facts₀ where

variable [Facts]
-- ==== Proof.Spec.lean ====
/-
  The fast-weight update as ONE function of the five argument arrays, entry by entry, on the extended reals.

  For a batch `b`, a head `h`, a row `i` and a column `j`:

    out[b,h,i,j] = memory[b,h,i,j] · alpha[b,h] + eta[b,h] · ((Σ_k memory[b,h,i,k] · key[b,h,k] − value[b,h,i]) · key[b,h,j])

  The prediction `Σ_k memory[b,h,i,k] · key[b,h,k]` is one row of the matrix–vector product, the error is the
  prediction minus the value, the gradient is the outer product of the error with the key, and the result is the
  decayed memory plus the scaled gradient.  Nothing here is rearranged: both programs compute exactly this tree of
  operations, so no law of the extended reals beyond re-indexing the one sum is needed.
-/
import Idealize.ShloMosaic.Lib.ValueIdx
import Idealize.ShloMosaic.PureOps.Ideal.Laws

noncomputable section

open scoped BigOperators

namespace Cert.Update

open Idealize.ShloMosaic Idealize.ShloMosaic.ValueIdx

/-- The memory's shape: batch, head, row, column. -/
abbrev SMem : Shape := ⟨4, ![16, 16, 512, 512]⟩
/-- A column per batch and head (the key and the value). -/
abbrev SCol : Shape := ⟨4, ![16, 16, 512, 1]⟩
/-- A row per batch and head (the key transposed). -/
abbrev SRow : Shape := ⟨4, ![16, 16, 1, 512]⟩
/-- One number per batch and head (the decay and the learning rate). -/
abbrev SOne : Shape := ⟨4, ![16, 16, 1, 1]⟩

variable (M : FVec Ideal SMem .f32) (K V : FVec Ideal SCol .f32) (Kt : FVec Ideal SRow .f32) (A E : FVec Ideal SOne .f32)

/-- Row `i` of the matrix–vector product `memory[b,h] · key[b,h]`. -/
def prediction (b h : Fin 16) (i : Fin 512) : EReal :=
  ∑ k : Fin 512, M (ix4 b h i k) * K (ix4 b h k (0 : Fin 1))

/-- One entry of the updated memory, the key's second occurrence read from a ROW array `Kt` (the kernel is handed the
    key transposed as a separate operand). -/
def entryT (b h : Fin 16) (i j : Fin 512) : EReal :=
  M (ix4 b h i j) * A (ix4 b h (0 : Fin 1) (0 : Fin 1))
    + E (ix4 b h (0 : Fin 1) (0 : Fin 1)) * ((prediction M K b h i - V (ix4 b h i (0 : Fin 1))) * Kt (ix4 b h (0 : Fin 1) j))

/-- One entry of the updated memory, both occurrences of the key read from the column array. -/
def entry (b h : Fin 16) (i j : Fin 512) : EReal :=
  M (ix4 b h i j) * A (ix4 b h (0 : Fin 1) (0 : Fin 1))
    + E (ix4 b h (0 : Fin 1) (0 : Fin 1)) * ((prediction M K b h i - V (ix4 b h i (0 : Fin 1))) * K (ix4 b h j (0 : Fin 1)))

/-- The updated memory as a whole array. -/
def updated : FVec Ideal SMem .f32 := fun x => entry M K V A E (x 0) (x 1) (x 2) (x 3)

/-- The same with the key's second occurrence read from the row array. -/
def updatedT : FVec Ideal SMem .f32 := fun x => entryT M K V Kt A E (x 0) (x 1) (x 2) (x 3)

theorem updated_ix4 (b h : Fin 16) (i j : Fin 512) : updated M K V A E (ix4 b h i j) = entry M K V A E b h i j := rfl

theorem updatedT_ix4 (b h : Fin 16) (i j : Fin 512) : updatedT M K V Kt A E (ix4 b h i j) = entryT M K V Kt A E b h i j := rfl

/-- When the row array is the column array transposed, the two forms are one array. -/
theorem updatedT_eq_updated (hKt : ∀ (b h : Fin 16) (j : Fin 512), Kt (ix4 b h (0 : Fin 1) j) = K (ix4 b h j (0 : Fin 1))) :
    updatedT M K V Kt A E = updated M K V A E := by
  funext x
  obtain ⟨b, h, i, j, rfl⟩ : ∃ (b h : Fin 16) (i j : Fin 512), x = ix4 b h i j := ⟨x 0, x 1, x 2, x 3, eq_ix4 x⟩
  show entryT M K V Kt A E b h i j = entry M K V A E b h i j
  unfold entryT entry
  rw [hKt b h j]

end Cert.Update

end
-- ==== Proof.RefValue.lean ====
/-
  The reference's result is the update function of Spec.lean, entry by entry.

  The reference multiplies the memory by the broadcast decay, and adds the broadcast learning rate times the product
  of the broadcast error (the batched matrix–vector product minus the value) with the broadcast transposed key.  Read
  at the entry (b, h, i, j) every broadcast and the transpose only move the index: the decay and the rate are read at
  (b, h, 0, 0), the error at (b, h, i, 0), the transposed key at (b, h, 0, j), which is the key at (b, h, j, 0); the
  matrix–vector product at (b, h, i, 0) is the sum over k of memory (b, h, i, k) times key (b, h, k, 0).
-/
import proofs.«130571_j8589934763_1_alg».proof.Proof.Gen.ReferenceIdeal.Read
import proofs.«130571_j8589934763_1_alg».proof.Proof.Spec

noncomputable section

open scoped BigOperators

namespace Cert.Update.Ref

open Cert.ReferenceIdeal Cert.ReferenceIdeal.Read Idealize.ShloMosaic Idealize.ShloMosaic.ValueIdx

variable (b h : Fin 16) (i j : Fin 512)

/-- The decay and the rate are read at (b, h, 0, 0). -/
theorem at_scalar6 : idx_main_v6 (ix4 b h i j) = ix4 b h (0 : Fin 1) (0 : Fin 1) :=
  funext fun a => Fin.ext (by match a with | ⟨0, _⟩ => rfl | ⟨1, _⟩ => rfl | ⟨2, _⟩ => rfl | ⟨3, _⟩ => rfl)

theorem at_scalar8 : idx_main_v8 (ix4 b h i j) = ix4 b h (0 : Fin 1) (0 : Fin 1) :=
  funext fun a => Fin.ext (by match a with | ⟨0, _⟩ => rfl | ⟨1, _⟩ => rfl | ⟨2, _⟩ => rfl | ⟨3, _⟩ => rfl)

/-- The error is read at (b, h, i, 0). -/
theorem at_error : idx_main_v3 (ix4 b h i j) = ix4 b h i (0 : Fin 1) :=
  funext fun a => Fin.ext (by match a with | ⟨0, _⟩ => rfl | ⟨1, _⟩ => rfl | ⟨2, _⟩ => rfl | ⟨3, _⟩ => rfl)

/-- The broadcast transposed key at (b, h, i, j) is the key at (b, h, j, 0). -/
theorem at_key : idx_main_v2 (idx_main_v4 (ix4 b h i j)) = ix4 b h j (0 : Fin 1) :=
  funext fun a => Fin.ext (by match a with | ⟨0, _⟩ => rfl | ⟨1, _⟩ => rfl | ⟨2, _⟩ => rfl | ⟨3, _⟩ => rfl)

/-- The product's left factor at contraction index k is the memory at (b, h, i, k). -/
theorem at_lhs (k : Fin 512) : lidx_main_v0 (ix4 b h i (0 : Fin 1)) k = ix4 b h i k :=
  funext fun a => Fin.ext (by match a with | ⟨0, _⟩ => rfl | ⟨1, _⟩ => rfl | ⟨2, _⟩ => rfl | ⟨3, _⟩ => rfl)

/-- Its right factor is the key at (b, h, k, 0). -/
theorem at_rhs (k : Fin 512) : ridx_main_v0 (ix4 b h i (0 : Fin 1)) k = ix4 b h k (0 : Fin 1) :=
  funext fun a => Fin.ext (by match a with | ⟨0, _⟩ => rfl | ⟨1, _⟩ => rfl | ⟨2, _⟩ => rfl | ⟨3, _⟩ => rfl)

/-- The reference's last stage is the update function. -/
theorem reference_eq (M : FVec Ideal SMem .f32) (K V : FVec Ideal SCol .f32) (A E : FVec Ideal SOne .f32) :
    val_main_v10 (F := Ideal) M K V A E = updated M K V A E := by
  funext x
  obtain ⟨b, h, i, j, rfl⟩ : ∃ (b h : Fin 16) (i j : Fin 512), x = ix4 b h i j := ⟨x 0, x 1, x 2, x 3, eq_ix4 x⟩
  rw [updated_ix4, val_main_v10_apply, val_main_v7_apply, val_main_v9_apply, val_main_v6_apply, val_main_v8_apply,
    val_main_v5_apply, val_main_v3_apply, val_main_v4_apply, val_main_v2_apply, val_main_v1_apply, val_main_v0_apply,
    at_scalar6, at_scalar8, at_error, at_key]
  simp only [at_lhs, at_rhs, Ideal.addf_def, Ideal.mulf_def, Ideal.subf_def]
  rfl

end Cert.Update.Ref

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibUnitAxes.lean ====
/-
  Two leading unit axes dropped from or added to a matrix by a shape cast, and a one-entry matrix broadcast over a
  matrix, each read at an index written by its coordinates.  General in the extents and in the element type.
-/
import Idealize.ShloMosaic.Lib.ValueIdx
import Idealize.ShloMosaic.Lib.Pipeline.Value

namespace Cert.Lib.UnitAxes

open Idealize.ShloMosaic Idealize.ShloMosaic.ValueIdx

variable {α : Type}

/-- A `[1, 1, a, b]` array cast to `[a, b]` reads, at `(p, q)`, the operand at `(0, 0, p, q)`: both have row-major
    position `p · b + q`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add, Nat.mul_one, Nat.add_zero])

/-- An `[a, b]` array cast to `[1, 1, a, b]` reads, at `(u, w, p, q)`, the operand at `(p, q)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (p : Fin a) (q : Fin b) :
    shapeCast ⟨4, ![1, 1, a, b]⟩ x h (ix4 u w p q) = x (ix2 p q) :=
  shapeCast_apply x h _ _ (by
    have hu : u.val = 0 := by omega
    have hw : w.val = 0 := by omega
    rw [Shape.rowMajor_val_four, Shape.rowMajor_val_two]
    show p.val * b + q.val = ((u.val * 1 + w.val) * a + p.val) * b + q.val
    rw [hu, hw]
    simp only [Nat.zero_mul, Nat.zero_add, Nat.mul_one, Nat.add_zero])

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.Lib.UnitAxes
-- ==== Proof.Payload.lean ====
/-
  What the kernel body stores, read entry by entry.

  At one grid point the body holds a 512×512 tile of the memory, the key as a 512×1 column and as a 1×512 row, the
  value as a column, and the decay and the rate as 1×1 tiles, each with two leading unit axes.  It computes the tile's
  matrix–vector product with the key column on the matrix unit (into a zero accumulator, so the product is the plain
  sum), subtracts the value, multiplies the error column, broadcast along the rows, by the key row, broadcast along the
  columns, and adds the rate times that outer product to the decay times the tile.  The changes of float format are
  the identity on the extended reals; the casts and broadcasts only move the index.  So the stored entry (p, q) is

    tile (p, q) · decay + rate · ((Σ_k tile (p, k) · keycol (k) − valcol (p)) · keyrow (q)).
-/
import proofs.«130571_j8589934763_1_alg».proof.Proof.Gen.KernelIdeal.Skeleton
import proofs.«130571_j8589934763_1_alg».proof.Proof.Spec
import proofs.«130571_j8589934763_1_alg».proof.Proof.LibKeepdims
import proofs.«130571_j8589934763_1_alg».proof.Proof.LibUnitAxes
import Idealize.ShloMosaic.Lib.ValueIdx
import Idealize.ShloMosaic.Lib.ValueLayout
import Idealize.ShloMosaic.PureOps.Ideal.Laws

noncomputable section

open scoped BigOperators

namespace Cert.Update.Body

open Cert.KernelIdeal Cert.KernelIdeal.Gen Idealize.ShloMosaic Idealize.ShloMosaic.ValueIdx
open Cert.Lib.Keepdims Cert.Lib.UnitAxes

/-! ## The matrix–vector product's operand indices -/

/-- The left operand's row is the output's row. -/
theorem lhs_axis0 (i : S512x1.Idx) (q : dot_S512x512_S512x1_S512x1_1_0_0_1_n_n.contr.Idx) :
    (dot_S512x512_S512x1_S512x1_1_0_0_1_n_n.lhsIdx i q 0).val = (i 0).val := by
  unfold DotDims.lhsIdx
  rw [dif_neg (show ¬(0 : Fin S512x512.rank) ∈ dot_S512x512_S512x1_S512x1_1_0_0_1_n_n.lhsBatch by decide), dif_pos (show (0 : Fin S512x512.rank) ∈ dot_S512x512_S512x1_S512x1_1_0_0_1_n_n.lhsNonContracting by decide)]
  rfl
/-- The left operand's column is the contracted coordinate. -/
theorem lhs_axis1 (i : S512x1.Idx) (q : dot_S512x512_S512x1_S512x1_1_0_0_1_n_n.contr.Idx) :
    (dot_S512x512_S512x1_S512x1_1_0_0_1_n_n.lhsIdx i q 1).val = (q ⟨0, by decide⟩).val :=
  dot_S512x512_S512x1_S512x1_1_0_0_1_n_n.lhsIdx_val_of_single rfl i q
/-- The right operand's row is the contracted coordinate. -/
theorem rhs_axis0 (i : S512x1.Idx) (q : dot_S512x512_S512x1_S512x1_1_0_0_1_n_n.contr.Idx) :
    (dot_S512x512_S512x1_S512x1_1_0_0_1_n_n.rhsIdx i q 0).val = (q ⟨0, by decide⟩).val :=
  dot_S512x512_S512x1_S512x1_1_0_0_1_n_n.rhsIdx_val_of_single rfl i q
/-- The right operand's column is the output's column. -/
theorem rhs_axis1 (i : S512x1.Idx) (q : dot_S512x512_S512x1_S512x1_1_0_0_1_n_n.contr.Idx) :
    (dot_S512x512_S512x1_S512x1_1_0_0_1_n_n.rhsIdx i q 1).val = (i 1).val := by
  unfold DotDims.rhsIdx
  rw [dif_neg (show ¬(1 : Fin S512x1.rank) ∈ dot_S512x512_S512x1_S512x1_1_0_0_1_n_n.rhsBatch by decide), dif_pos (show (1 : Fin S512x1.rank) ∈ dot_S512x512_S512x1_S512x1_1_0_0_1_n_n.rhsNonContracting by decide)]
  rfl

/-- The matrix unit's product of a 512×512 matrix with a 512×1 column into a zero accumulator, read at row `p`: the sum
    over the contracted coordinate of the products of the entries. -/
theorem matvec_apply (l : FVec Ideal S512x512 .bf16) (r : FVec Ideal S512x1 .bf16) (p : Fin 512) (u : Fin 1) :
    matmul dot_S512x512_S512x1_S512x1_1_0_0_1_n_n none l r (constant (F := Ideal) S512x1 .f32 0x00000000#32) (ix2 p u)
      = ∑ k : Fin 512, l (ix2 p k) * r (ix2 k (0 : Fin 1)) := by
  show FloatOps.matmul dot_S512x512_S512x1_S512x1_1_0_0_1_n_n none l r (constant (F := Ideal) S512x1 .f32 0x00000000#32) (ix2 p u) = _
  rw [Ideal.matmul_constant_zero_apply, ← Equiv.sum_comp (contrEquiv1 dot_S512x512_S512x1_S512x1_1_0_0_1_n_n 512 rfl rfl).symm]
  refine Finset.sum_congr rfl fun k _ => ?_
  have hk := contrEquiv1_symm_val dot_S512x512_S512x1_S512x1_1_0_0_1_n_n 512 rfl rfl k
  have el : dot_S512x512_S512x1_S512x1_1_0_0_1_n_n.lhsIdx (ix2 p u) ((contrEquiv1 dot_S512x512_S512x1_S512x1_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S512x512_S512x1_S512x1_1_0_0_1_n_n.rhsIdx (ix2 p u) ((contrEquiv1 dot_S512x512_S512x1_S512x1_1_0_0_1_n_n 512 rfl rfl).symm k) = ix2 k (0 : Fin 1) := funext fun a => Fin.ext (by
    match a with
    | ⟨0, _⟩ => exact (rhs_axis0 _ _).trans hk
    | ⟨1, _⟩ => exact (rhs_axis1 _ _).trans (by show u.val = 0; omega))
  rw [el, er]

/-! ## The stored tile, entry by entry -/

/-- Entry (p, q) of the tile the body stores, from the six tiles it loads. -/
theorem stored_apply (x0 : Vec Ideal S1x1x512x512 .f32) (x1 : Vec Ideal S1x1x512x1 .f32) (x2 : Vec Ideal S1x1x1x512 .f32)
    (x3 : Vec Ideal S1x1x512x1 .f32) (x4 x5 : Vec Ideal S1x1x1x1 .f32) (u w : Fin 1) (p q : Fin 512) :
    k0_pay1 (F := Ideal) x0 x1 x2 x3 x4 x5 (ix4 u w p q)
      = x0 (ix4 (0 : Fin 1) (0 : Fin 1) p q) * x4 (ix4 (0 : Fin 1) (0 : Fin 1) (0 : Fin 1) (0 : Fin 1))
        + x5 (ix4 (0 : Fin 1) (0 : Fin 1) (0 : Fin 1) (0 : Fin 1))
          * ((∑ k : Fin 512, x0 (ix4 (0 : Fin 1) (0 : Fin 1) p k) * x1 (ix4 (0 : Fin 1) (0 : Fin 1) k (0 : Fin 1))
                - x3 (ix4 (0 : Fin 1) (0 : Fin 1) p (0 : Fin 1)))
              * x2 (ix4 (0 : Fin 1) (0 : Fin 1) (0 : Fin 1) q)) := by
  unfold k0_pay1
  rw [shapeCast_ab_11ab_apply, addf_apply, mulf_apply, mulf_apply, mulf_apply,
    broadcastTo_11_ab_apply, broadcastTo_11_ab_apply, broadcastTo_a1_ab_apply, broadcastTo_1b_ab_apply, subf_apply,
    matvec_apply]
  simp only [truncf_apply, shapeCast_11ab_ab_apply]

/-- When the six loaded tiles are the (b, h) slices of six arrays, the stored tile is the (b, h) slice of the update
    function of those arrays (the key's second occurrence read from the row array). -/
theorem stored_eq_updated (M : FVec Ideal SMem .f32) (K V : FVec Ideal SCol .f32) (Kt : FVec Ideal SRow .f32) (A E : FVec Ideal SOne .f32)
    (x0 : Vec Ideal S1x1x512x512 .f32) (x1 : Vec Ideal S1x1x512x1 .f32) (x2 : Vec Ideal S1x1x1x512 .f32)
    (x3 : Vec Ideal S1x1x512x1 .f32) (x4 x5 : Vec Ideal S1x1x1x1 .f32) (b h : Fin 16)
    (h0 : ∀ p q : Fin 512, x0 (ix4 (0 : Fin 1) (0 : Fin 1) p q) = M (ix4 b h p q))
    (h1 : ∀ k : Fin 512, x1 (ix4 (0 : Fin 1) (0 : Fin 1) k (0 : Fin 1)) = K (ix4 b h k (0 : Fin 1)))
    (h2 : ∀ q : Fin 512, x2 (ix4 (0 : Fin 1) (0 : Fin 1) (0 : Fin 1) q) = Kt (ix4 b h (0 : Fin 1) q))
    (h3 : ∀ p : Fin 512, x3 (ix4 (0 : Fin 1) (0 : Fin 1) p (0 : Fin 1)) = V (ix4 b h p (0 : Fin 1)))
    (h4 : x4 (ix4 (0 : Fin 1) (0 : Fin 1) (0 : Fin 1) (0 : Fin 1)) = A (ix4 b h (0 : Fin 1) (0 : Fin 1)))
    (h5 : x5 (ix4 (0 : Fin 1) (0 : Fin 1) (0 : Fin 1) (0 : Fin 1)) = E (ix4 b h (0 : Fin 1) (0 : Fin 1)))
    (u w : Fin 1) (p q : Fin 512) :
    k0_pay1 (F := Ideal) x0 x1 x2 x3 x4 x5 (ix4 u w p q) = updatedT M K V Kt A E (ix4 b h p q) := by
  rw [stored_apply, updatedT_ix4]
  unfold entryT prediction
  rw [h0 p q, h2 q, h3 p, h4, h5]
  simp only [h0, h1]

end Cert.Update.Body

end
-- ==== Proof.KernelValue.lean ====
/-
  The kernel's result array is the update function of the argument arrays.

  The grid has one point per (batch, head).  At the point of (b, h) every window's block is the (b, h) slice of its
  array: block index (b, h, 0, 0), the last two axes whole.  So the six loaded tiles are the (b, h) slices of the
  memory, the key, the transposed key, the value, the decay and the rate, and by Payload.lean the stored tile is the
  (b, h) slice of the update function of those arrays.  The 256 written-back blocks tile the result array (entry
  (b, h, i, j) lies in the block of the point whose block index is (b, h)), so the array ends at the update function.
  The transposed key is not an argument: the host transposes the key before the call, and the transposed key at
  (b, h, 0, j) is the key at (b, h, j, 0), which turns the row form of the update function into the column form.
-/
import proofs.«130571_j8589934763_1_alg».proof.Proof.Gen.KernelIdeal.Value
import proofs.«130571_j8589934763_1_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.Update.Kernel

open Cert.KernelIdeal Cert.KernelIdeal.Gen Cert.KernelIdeal.Value Idealize.ShloMosaic.ValueIdx

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-! ## The index maps, decided over the grid -/

/-- At every point the output's block index is zero on the last two axes and below 16 on the batch and head axes. -/
theorem out_index : ∀ t : Fin cfg0.N, win0_6.index t (2 : Fin 4) = 0 ∧ win0_6.index t (3 : Fin 4) = 0
    ∧ win0_6.index t (0 : Fin 4) < 16 ∧ win0_6.index t (1 : Fin 4) < 16 :=
  (by decide +kernel : ∀ t : Fin grid0.N, _)

/-- Every input window's block index is the output's, at every point and on every axis. -/
theorem memory_index : ∀ (t : Fin cfg0.N) (a : Fin 4), win0_0.index t a = win0_6.index t a :=
  (by decide +kernel : ∀ (t : Fin grid0.N) (a : Fin 4), _)
theorem key_index : ∀ (t : Fin cfg0.N) (a : Fin 4), win0_1.index t a = win0_6.index t a :=
  (by decide +kernel : ∀ (t : Fin grid0.N) (a : Fin 4), _)
theorem key_row_index : ∀ (t : Fin cfg0.N) (a : Fin 4), win0_2.index t a = win0_6.index t a :=
  (by decide +kernel : ∀ (t : Fin grid0.N) (a : Fin 4), _)
theorem value_index : ∀ (t : Fin cfg0.N) (a : Fin 4), win0_3.index t a = win0_6.index t a :=
  (by decide +kernel : ∀ (t : Fin grid0.N) (a : Fin 4), _)
theorem decay_index : ∀ (t : Fin cfg0.N) (a : Fin 4), win0_4.index t a = win0_6.index t a :=
  (by decide +kernel : ∀ (t : Fin grid0.N) (a : Fin 4), _)
theorem rate_index : ∀ (t : Fin cfg0.N) (a : Fin 4), win0_5.index t a = win0_6.index t a :=
  (by decide +kernel : ∀ (t : Fin grid0.N) (a : Fin 4), _)

/-- Every (batch, head) pair is some point's. -/
theorem point_of : ∀ (b h : Fin 16), ∃ t : Fin cfg0.N, win0_6.index t (0 : Fin 4) = b.val ∧ win0_6.index t (1 : Fin 4) = h.val :=
  (by decide +kernel : ∀ (b h : Fin 16), ∃ t : Fin grid0.N, win0_6.index t (0 : Fin 4) = b.val ∧ win0_6.index t (1 : Fin 4) = h.val)

/-- The batch of point `t`. -/
def batchOf (t : Fin cfg0.N) : Fin 16 := ⟨win0_6.index t (0 : Fin 4), (out_index t).2.2.1⟩
/-- The head of point `t`. -/
def headOf (t : Fin cfg0.N) : Fin 16 := ⟨win0_6.index t (1 : Fin 4), (out_index t).2.2.2⟩

/-! ## The host's transpose before the call -/

/-- The call finds the transposed key where the host put it. -/
theorem transposed_key (c : Dev nD) : (V m c main_v0 : S16x16x1x512.Idx → EReal)
    = transpose S16x16x1x512 [0, 1, 3, 2] (m ((c : Thread nD τ).loc main_arg1)) transposes_S16x16x512x1_S16x16x1x512_0_1_3_2 := by
  dsimp only [Gen.V, Gen.hostOps0]
  after_results

/-- The transposed key at (b, h, 0, j) is the key at (b, h, j, 0). -/
theorem transposed_key_apply (c : Dev nD) (b h : Fin 16) (j : Fin 512) :
    (V m c main_v0 : S16x16x1x512.Idx → EReal) (ix4 b h (0 : Fin 1) j)
      = (m ((c : Thread nD τ).loc main_arg1) : S16x16x512x1.Idx → EReal) (ix4 b h j (0 : Fin 1)) := by
  rw [transposed_key]
  exact transpose_apply [0, 1, 3, 2] _ transposes_S16x16x512x1_S16x16x1x512_0_1_3_2 _ (ix4 b h j (0 : Fin 1)) (fun a => match a with
    | ⟨0, _⟩ => rfl
    | ⟨1, _⟩ => rfl
    | ⟨2, _⟩ => rfl
    | ⟨3, _⟩ => rfl)

/-! ## Each window's block at a point is the (batch, head) slice of its array -/

theorem memory_block (c : Dev nD) (t : Fin cfg0.N) (p q : Fin 512) :
    (iblk m c 0 t : Vec Ideal S1x1x512x512 .f32) (ix4 (0 : Fin 1) (0 : Fin 1) p q)
      = (V m c main_arg0 : S16x16x512x512.Idx → EReal) (ix4 (batchOf t) (headOf t) p q) := by
  have e := memory_index t
  obtain ⟨e2, e3, -, -⟩ := out_index t
  unfold iblk
  rw [View.read_apply]
  show V m c main_arg0 _ = V m c main_arg0 _
  congr 1
  funext a
  apply Fin.ext
  match a with
  | ⟨0, _⟩ => show win0_0.index t (0 : Fin 4) * 1 + 1 * 0 = win0_6.index t (0 : Fin 4); rw [e 0]; omega
  | ⟨1, _⟩ => show win0_0.index t (1 : Fin 4) * 1 + 1 * 0 = win0_6.index t (1 : Fin 4); rw [e 1]; omega
  | ⟨2, _⟩ => show win0_0.index t (2 : Fin 4) * 512 + 1 * p.val = p.val; rw [e 2, e2]; omega
  | ⟨3, _⟩ => show win0_0.index t (3 : Fin 4) * 512 + 1 * q.val = q.val; rw [e 3, e3]; omega

theorem key_block (c : Dev nD) (t : Fin cfg0.N) (k : Fin 512) :
    (iblk m c 1 t : Vec Ideal S1x1x512x1 .f32) (ix4 (0 : Fin 1) (0 : Fin 1) k (0 : Fin 1))
      = (V m c main_arg1 : S16x16x512x1.Idx → EReal) (ix4 (batchOf t) (headOf t) k (0 : Fin 1)) := by
  have e := key_index t
  obtain ⟨e2, e3, -, -⟩ := out_index t
  unfold iblk
  rw [View.read_apply]
  show V m c main_arg1 _ = V m c main_arg1 _
  congr 1
  funext a
  apply Fin.ext
  match a with
  | ⟨0, _⟩ => show win0_1.index t (0 : Fin 4) * 1 + 1 * 0 = win0_6.index t (0 : Fin 4); rw [e 0]; omega
  | ⟨1, _⟩ => show win0_1.index t (1 : Fin 4) * 1 + 1 * 0 = win0_6.index t (1 : Fin 4); rw [e 1]; omega
  | ⟨2, _⟩ => show win0_1.index t (2 : Fin 4) * 512 + 1 * k.val = k.val; rw [e 2, e2]; omega
  | ⟨3, _⟩ => show win0_1.index t (3 : Fin 4) * 1 + 1 * 0 = 0; rw [e 3, e3]

theorem key_row_block (c : Dev nD) (t : Fin cfg0.N) (q : Fin 512) :
    (iblk m c 2 t : Vec Ideal S1x1x1x512 .f32) (ix4 (0 : Fin 1) (0 : Fin 1) (0 : Fin 1) q)
      = (V m c main_v0 : S16x16x1x512.Idx → EReal) (ix4 (batchOf t) (headOf t) (0 : Fin 1) q) := by
  have e := key_row_index t
  obtain ⟨e2, e3, -, -⟩ := out_index t
  unfold iblk
  rw [View.read_apply]
  show V m c main_v0 _ = V m c main_v0 _
  congr 1
  funext a
  apply Fin.ext
  match a with
  | ⟨0, _⟩ => show win0_2.index t (0 : Fin 4) * 1 + 1 * 0 = win0_6.index t (0 : Fin 4); rw [e 0]; omega
  | ⟨1, _⟩ => show win0_2.index t (1 : Fin 4) * 1 + 1 * 0 = win0_6.index t (1 : Fin 4); rw [e 1]; omega
  | ⟨2, _⟩ => show win0_2.index t (2 : Fin 4) * 1 + 1 * 0 = 0; rw [e 2, e2]
  | ⟨3, _⟩ => show win0_2.index t (3 : Fin 4) * 512 + 1 * q.val = q.val; rw [e 3, e3]; omega

theorem value_block (c : Dev nD) (t : Fin cfg0.N) (p : Fin 512) :
    (iblk m c 3 t : Vec Ideal S1x1x512x1 .f32) (ix4 (0 : Fin 1) (0 : Fin 1) p (0 : Fin 1))
      = (V m c main_arg2 : S16x16x512x1.Idx → EReal) (ix4 (batchOf t) (headOf t) p (0 : Fin 1)) := by
  have e := value_index t
  obtain ⟨e2, e3, -, -⟩ := out_index t
  unfold iblk
  rw [View.read_apply]
  show V m c main_arg2 _ = V m c main_arg2 _
  congr 1
  funext a
  apply Fin.ext
  match a with
  | ⟨0, _⟩ => show win0_3.index t (0 : Fin 4) * 1 + 1 * 0 = win0_6.index t (0 : Fin 4); rw [e 0]; omega
  | ⟨1, _⟩ => show win0_3.index t (1 : Fin 4) * 1 + 1 * 0 = win0_6.index t (1 : Fin 4); rw [e 1]; omega
  | ⟨2, _⟩ => show win0_3.index t (2 : Fin 4) * 512 + 1 * p.val = p.val; rw [e 2, e2]; omega
  | ⟨3, _⟩ => show win0_3.index t (3 : Fin 4) * 1 + 1 * 0 = 0; rw [e 3, e3]

theorem decay_block (c : Dev nD) (t : Fin cfg0.N) :
    (iblk m c 4 t : Vec Ideal S1x1x1x1 .f32) (ix4 (0 : Fin 1) (0 : Fin 1) (0 : Fin 1) (0 : Fin 1))
      = (V m c main_arg3 : S16x16x1x1.Idx → EReal) (ix4 (batchOf t) (headOf t) (0 : Fin 1) (0 : Fin 1)) := by
  have e := decay_index t
  obtain ⟨e2, e3, -, -⟩ := out_index t
  unfold iblk
  rw [View.read_apply]
  show V m c main_arg3 _ = V m c main_arg3 _
  congr 1
  funext a
  apply Fin.ext
  match a with
  | ⟨0, _⟩ => show win0_4.index t (0 : Fin 4) * 1 + 1 * 0 = win0_6.index t (0 : Fin 4); rw [e 0]; omega
  | ⟨1, _⟩ => show win0_4.index t (1 : Fin 4) * 1 + 1 * 0 = win0_6.index t (1 : Fin 4); rw [e 1]; omega
  | ⟨2, _⟩ => show win0_4.index t (2 : Fin 4) * 1 + 1 * 0 = 0; rw [e 2, e2]
  | ⟨3, _⟩ => show win0_4.index t (3 : Fin 4) * 1 + 1 * 0 = 0; rw [e 3, e3]

theorem rate_block (c : Dev nD) (t : Fin cfg0.N) :
    (iblk m c 5 t : Vec Ideal S1x1x1x1 .f32) (ix4 (0 : Fin 1) (0 : Fin 1) (0 : Fin 1) (0 : Fin 1))
      = (V m c main_arg4 : S16x16x1x1.Idx → EReal) (ix4 (batchOf t) (headOf t) (0 : Fin 1) (0 : Fin 1)) := by
  have e := rate_index t
  obtain ⟨e2, e3, -, -⟩ := out_index t
  unfold iblk
  rw [View.read_apply]
  show V m c main_arg4 _ = V m c main_arg4 _
  congr 1
  funext a
  apply Fin.ext
  match a with
  | ⟨0, _⟩ => show win0_5.index t (0 : Fin 4) * 1 + 1 * 0 = win0_6.index t (0 : Fin 4); rw [e 0]; omega
  | ⟨1, _⟩ => show win0_5.index t (1 : Fin 4) * 1 + 1 * 0 = win0_6.index t (1 : Fin 4); rw [e 1]; omega
  | ⟨2, _⟩ => show win0_5.index t (2 : Fin 4) * 1 + 1 * 0 = 0; rw [e 2, e2]
  | ⟨3, _⟩ => show win0_5.index t (3 : Fin 4) * 1 + 1 * 0 = 0; rw [e 3, e3]

/-! ## What a point writes back, the cover, the final array -/

/-- The update function of the arrays as the call finds them, the key's second occurrence read from the transposed key. -/
abbrev target (c : Dev nD) : S16x16x512x512.Idx → EReal :=
  updatedT (V m c main_arg0) (V m c main_arg1) (V m c main_arg2) (V m c main_v0) (V m c main_arg3) (V m c main_arg4)

/-- Point `t` writes back block `t` of the update function. -/
theorem written_back (c : Dev nD) (t : Fin cfg0.N) :
    (dats m 0 c).flushed 6 t = ((cfg0.win 6).blk t).view.read (Elt Ideal) (target m c) := by
  rw [flushed6]
  unfold out0_6
  rw [View.canon_unit_zero offsets_zero]
  simp only [View.ld_unit_zero (S := S1x1x512x512) offsets_zero, View.ld_unit_zero (S := S1x1x512x1) offsets_zero,
    View.ld_unit_zero (S := S1x1x1x512) offsets_zero, View.ld_unit_zero (S := S1x1x1x1) offsets_zero]
  obtain ⟨e2, e3, -, -⟩ := out_index t
  funext y
  obtain ⟨u, w, p, q, rfl⟩ : ∃ (u w : Fin 1) (p q : Fin 512), y = ix4 u w p q := ⟨y 0, y 1, y 2, y 3, eq_ix4 y⟩
  rw [View.read_apply]
  show k0_pay1 (F := Ideal) (iblk m c 0 t) (iblk m c 1 t) (iblk m c 2 t) (iblk m c 3 t) (iblk m c 4 t) (iblk m c 5 t) (ix4 u w p q)
    = target m c (((cfg0.win 6).blk t).view.emb (ix4 u w p q))
  have hemb : ((cfg0.win 6).blk t).view.emb (ix4 u w p q) = ix4 (batchOf t) (headOf t) p q := by
    funext a
    apply Fin.ext
    match a with
    | ⟨0, _⟩ => show win0_6.index t (0 : Fin 4) * 1 + 1 * u.val = win0_6.index t (0 : Fin 4); omega
    | ⟨1, _⟩ => show win0_6.index t (1 : Fin 4) * 1 + 1 * w.val = win0_6.index t (1 : Fin 4); omega
    | ⟨2, _⟩ => show win0_6.index t (2 : Fin 4) * 512 + 1 * p.val = p.val; rw [e2]; omega
    | ⟨3, _⟩ => show win0_6.index t (3 : Fin 4) * 512 + 1 * q.val = q.val; rw [e3]; omega
  rw [hemb]
  exact Cert.Update.Body.stored_eq_updated (V m c main_arg0) (V m c main_arg1) (V m c main_arg2) (V m c main_v0) (V m c main_arg3) (V m c main_arg4)
    (iblk m c 0 t) (iblk m c 1 t) (iblk m c 2 t) (iblk m c 3 t) (iblk m c 4 t) (iblk m c 5 t) (batchOf t) (headOf t)
    (memory_block m c t) (key_block m c t) (key_row_block m c t) (value_block m c t) (decay_block m c t) (rate_block m c t) u w p q

/-- An entry is in point `t`'s block iff each coordinate is in the block's range on its axis. -/
theorem mem_block (t : Fin cfg0.N) (i : S16x16x512x512.Idx) :
    i ∈ ((cfg0.win 6).blk t).view.set ↔ ∀ a : Fin 4, win0_6.index t a * S1x1x512x512.size a ≤ (i a).val ∧ (i a).val < win0_6.index t a * S1x1x512x512.size a + S1x1x512x512.size a := by
  show i ∈ ((View.whole main_v1).slice (win0_6.rect t)).set ↔ _
  rw [View.set_slice_whole, Rect.mem_set_unit]
  exact Iff.rfl

/-- Every entry of the result array is in the block of the point of its batch and head. -/
theorem covered (i : S16x16x512x512.Idx) : ∃ t : Fin cfg0.N, (cfg0.win 6).flush t = true ∧ i ∈ ((cfg0.win 6).blk t).view.set := by
  obtain ⟨t, h0, h1⟩ := point_of ⟨(i 0).val, (i 0).isLt⟩ ⟨(i 1).val, (i 1).isLt⟩
  obtain ⟨e2, e3, -, -⟩ := out_index t
  have hi2 : (i 2).val < 512 := (i 2).isLt
  have hi3 : (i 3).val < 512 := (i 3).isLt
  refine ⟨t, flush0_6 t, ?_⟩
  rw [mem_block]
  intro a
  match a with
  | ⟨0, _⟩ => show win0_6.index t (0 : Fin 4) * 1 ≤ (i 0).val ∧ (i 0).val < win0_6.index t (0 : Fin 4) * 1 + 1; rw [h0]; show (i 0).val * 1 ≤ (i 0).val ∧ (i 0).val < (i 0).val * 1 + 1; omega
  | ⟨1, _⟩ => show win0_6.index t (1 : Fin 4) * 1 ≤ (i 1).val ∧ (i 1).val < win0_6.index t (1 : Fin 4) * 1 + 1; rw [h1]; show (i 1).val * 1 ≤ (i 1).val ∧ (i 1).val < (i 1).val * 1 + 1; omega
  | ⟨2, _⟩ => show win0_6.index t (2 : Fin 4) * 512 ≤ (i 2).val ∧ (i 2).val < win0_6.index t (2 : Fin 4) * 512 + 512; rw [e2]; omega
  | ⟨3, _⟩ => show win0_6.index t (3 : Fin 4) * 512 ≤ (i 3).val ∧ (i 3).val < win0_6.index t (3 : Fin 4) * 512 + 512; rw [e3]; omega

/-- The result array after the run is the update function of the arrays as the call finds them. -/
theorem final_array (c : Dev nD) : (dats m 0 c).arrAt 6 cfg0.N = target m c :=
  (dats m 0 c).arrAt_eq_of_cover 6 (target m c) (fun t _ => written_back m c t) covered

/-- In terms of the arguments alone: the update function of the five argument arrays. -/
theorem target_eq (c : Dev nD) :
    target m c = updated (m ((c : Thread nD τ).loc main_arg0)) (m ((c : Thread nD τ).loc main_arg1)) (m ((c : Thread nD τ).loc main_arg2))
      (m ((c : Thread nD τ).loc main_arg3)) (m ((c : Thread nD τ).loc main_arg4)) := by
  unfold target
  rw [updatedT_eq_updated _ _ _ _ _ _ (fun b h j => (transposed_key_apply m c b h j).trans (by rw [V_main_arg1])),
    V_main_arg0, V_main_arg1, V_main_arg2, V_main_arg3, V_main_arg4]

/-- The run, read: the result array at the update function of the arguments, the arguments unchanged. -/
theorem run : θ_run defs (onTc (τ := τ) (main (F := Ideal))) ⟨m, fun _ => 0, ρ⟩ fun r => ∀ c : Dev nD,
      r.2.mem ((c : Thread nD τ).loc main_v1) = updated (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1.trans (final_array m c)).trans (target_eq m c), (h c).2⟩)
    (run_blocks m ρ)

end Cert.Update.Kernel

end
-- ==== Proof.lean ====
/-
  The fast-weight update kernel against its reference, over the extended reals.

  Both programs compute, for every batch b, head h, row i and column j,

    memory[b,h,i,j] · alpha[b,h] + eta[b,h] · ((Σ_k memory[b,h,i,k] · key[b,h,k] − value[b,h,i]) · key[b,h,j])

  (Proof/Spec.lean).  The kernel does it one (b, h) tile per grid point, the matrix–vector product on the matrix unit
  with operands narrowed to bf16 — the identity on the extended reals — and a zero accumulator, the key's second
  occurrence read from a transposed copy the host makes before the call (Proof/Payload.lean, Proof/KernelValue.lean).
  The reference does it on whole arrays with a batched product, broadcasts and a transpose (Proof/RefValue.lean).  The
  two are the same tree of operations entry by entry, so the only step beyond moving indices is re-indexing the
  product's one sum by its contracted coordinate; no law that needs finiteness is used.

  The kernel's frames are the generated ones; the reference's frame is its generated run with the result dropped; the
  idealization rewrote nothing, so there is nothing to preserve.
-/
import proofs.«130571_j8589934763_1_alg».proof.Defs
import proofs.«130571_j8589934763_1_alg».proof.Proof.Gen.Kernel
import proofs.«130571_j8589934763_1_alg».proof.Proof.Gen.Kernel.Skeleton
import proofs.«130571_j8589934763_1_alg».proof.Proof.Gen.Kernel.Launch
import proofs.«130571_j8589934763_1_alg».proof.Proof.Gen.Kernel.Points
import proofs.«130571_j8589934763_1_alg».proof.Proof.Gen.Kernel.Frame
import proofs.«130571_j8589934763_1_alg».proof.Proof.Gen.KernelIdeal
import proofs.«130571_j8589934763_1_alg».proof.Proof.Gen.KernelIdeal.Skeleton
import proofs.«130571_j8589934763_1_alg».proof.Proof.Gen.KernelIdeal.Launch
import proofs.«130571_j8589934763_1_alg».proof.Proof.Gen.KernelIdeal.Points
import proofs.«130571_j8589934763_1_alg».proof.Proof.Gen.KernelIdeal.Frame
import proofs.«130571_j8589934763_1_alg».proof.Proof.Gen.KernelIdeal.Value
import proofs.«130571_j8589934763_1_alg».proof.Proof.Gen.ReferenceIdeal
import proofs.«130571_j8589934763_1_alg».proof.Proof.Gen.ReferenceIdeal.Run
import proofs.«130571_j8589934763_1_alg».proof.Proof.Gen.ReferenceIdeal.Read
import proofs.«130571_j8589934763_1_alg».proof.Proof.Gen.Pre_finite_inputs
import proofs.«130571_j8589934763_1_alg».proof.Proof.RefValue
import proofs.«130571_j8589934763_1_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments alone: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result array at the update function
    of those arguments. -/
theorem algebraic : Cert.algebraic_KernelIdeal_ReferenceIdeal := by
  intro m ρ m' ρ' _ hagree
  refine ⟨fun c => Cert.Update.updated (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.Update.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Update.Ref.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
